-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S64x3 : Shape := ⟨2, ![64, 3]⟩
abbrev S_ : Shape := ⟨0, ![]⟩

class Facts : Prop where
  bcast_S_S1048576x6 : S_.BroadcastsInDim S1048576x6 (![] : Fin 0 → Fin S1048576x6.rank)
  reducesTo_S1048576x6_S_d0_1 : S1048576x6.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S18x64 : S_.BroadcastsInDim S18x64 (![] : Fin 0 → Fin S18x64.rank)
  reducesTo_S18x64_S_d0_1 : S18x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x3 .f32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  main_v38

def fn_part1 {F : FTy → Type} [FloatOps F] (main_arg4 : FVec F S18x64 .f32) (main_arg5 : FVec F S64x64 .f32) (main_arg6 : FVec F S64x64 .f32) (main_arg7 : FVec F S64x3 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S18x64 .f32 := Host.absf main_arg4
  let main_cst_6 : FVec F S_ .f32 := constant S_ .f32 0x7F800000#32
  let main_v20 : FVec F S18x64 .f32 := broadcastInDim S18x64 ![] bcast_S_S18x64 main_cst_6
  let main_v21 : IVec S18x64 1 := cmpf .olt main_v19 main_v20
  let main_c_7 : IVec S_ 1 := constantI S_ 1 1#1
  let main_v22 : IVec S_ 1 := (fun x v => Host.reduce IntOp.andi x v reducesTo_S18x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S1048576x6 .f32) (main_arg1 : FVec F S3x64 .f32) (main_arg2 : FVec F S64x64 .f32) (main_arg3 : FVec F S64x16 .f32) (main_arg4 : FVec F S18x64 .f32) (main_arg5 : FVec F S64x64 .f32) (main_arg6 : FVec F S64x64 .f32) (main_arg7 : FVec F S64x3 .f32) : IVec S_ 1 :=
  let main_v0 : FVec F S1048576x6 .f32 := Host.absf main_arg0
  let main_cst : FVec F S_ .f32 := constant S_ .f32 0x7F800000#32
  let main_v1 : FVec F S1048576x6 .f32 := broadcastInDim S1048576x6 ![] bcast_S_S1048576x6 main_cst
  let main_v2 : IVec S1048576x6 1 := cmpf .olt main_v0 main_v1
  let main_c : IVec S_ 1 := constantI S_ 1 1#1
  let main_v3 : IVec S_ 1 := (fun x v => Host.reduce IntOp.andi x v reducesTo_S1048576x6_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_v13 main_v16
-- ==== Kernel.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S64x3 : Shape := ⟨2, ![64, 3]⟩
abbrev S1048576x4 : Shape := ⟨2, ![1048576, 4]⟩
abbrev S4096x6 : Shape := ⟨2, ![4096, 6]⟩
abbrev S4096x4 : Shape := ⟨2, ![4096, 4]⟩
abbrev S4096x3 : Shape := ⟨2, ![4096, 3]⟩
abbrev S4096x64 : Shape := ⟨2, ![4096, 64]⟩
abbrev S4096x16 : Shape := ⟨2, ![4096, 16]⟩
abbrev S4096x1 : Shape := ⟨2, ![4096, 1]⟩
abbrev S4096 : Shape := ⟨1, ![4096]⟩
abbrev S4096x15 : Shape := ⟨2, ![4096, 15]⟩
abbrev S4096x18 : Shape := ⟨2, ![4096, 18]⟩

abbrev nBuf : Space → Nat
  | .hbm => 9
  | .vmem => 11
  | .smem => 0
  | _ => 0

abbrev bufTy : (tb : Table) → Fin (tcTables nBuf tb) → BufTy
  | .hbm, ⟨0, _⟩ => ⟨S1048576x6, .f32⟩
  | .hbm, ⟨1, _⟩ => ⟨S3x64, .f32⟩
  | .hbm, ⟨2, _⟩ => ⟨S64x64, .f32⟩
  | .hbm, ⟨3, _⟩ => ⟨S64x16, .f32⟩
  | .hbm, ⟨4, _⟩ => ⟨S18x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S1048576x4, .f32⟩
  | .local _ .vmem, ⟨0, _⟩ => ⟨S4096x6, .f32⟩
  | .local _ .vmem, ⟨1, _⟩ => ⟨S4096x6, .f32⟩
  | .local _ .vmem, ⟨2, _⟩ => ⟨S3x64, .f32⟩
  | .local _ .vmem, ⟨3, _⟩ => ⟨S64x64, .f32⟩
  | .local _ .vmem, ⟨4, _⟩ => ⟨S64x16, .f32⟩
  | .local _ .vmem, ⟨5, _⟩ => ⟨S18x64, .f32⟩
  | .local _ .vmem, ⟨6, _⟩ => ⟨S64x64, .f32⟩
  | .local _ .vmem, ⟨7, _⟩ => ⟨S64x64, .f32⟩
  | .local _ .vmem, ⟨8, _⟩ => ⟨S64x3, .f32⟩
  | .local _ .vmem, ⟨9, _⟩ => ⟨S4096x4, .f32⟩
  | .local _ .vmem, ⟨10, _⟩ => ⟨S4096x4, .f32⟩
  | _, _ => ⟨S1048576x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S4096x6_S4096x6_0_0 : ∀ a, (![0, 0] : Fin 2 → Nat) a + S4096x6.size a ≤ S4096x6.size a
  h_S4096x6 : 0 < S4096x6.numel
  slices_S4096x6_o0_0_S4096x3 : S4096x6.Slices ![0, 0] S4096x3
  slices_S4096x6_o0_3_S4096x3 : S4096x6.Slices ![0, 3] S4096x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  slices_S4096x16_o0_0_S4096x1 : S4096x16.Slices ![0, 0] S4096x1
  shapeCasts_S4096x1_S4096 : S4096x1.ShapeCasts S4096
  slices_S4096x16_o0_1_S4096x15 : S4096x16.Slices ![0, 1] S4096x15
  concatenates_S4096x3_S4096x15_S4096x18_d1 : Shape.Concatenates [S4096x3, S4096x15] S4096x18 1
  inb_S18x64_S18x64_0_0 : ∀ a, (![0, 0] : Fin 2 → Nat) a + S18x64.size a ≤ S18x64.size a
  h_S18x64 : 0 < S18x64.numel
  inb_S64x3_S64x3_0_0 : ∀ a, (![0, 0] : Fin 2 → Nat) a + S64x3.size a ≤ S64x3.size a
  h_S64x3 : 0 < S64x3.numel
  shapeCasts_S4096_S4096x1 : S4096.ShapeCasts S4096x1
  concatenates_S4096x3_S4096x1_S4096x4_d1 : Shape.Concatenates [S4096x3, S4096x1] S4096x4 1
  inb_S4096x4_S4096x4_0_0 : ∀ a, (![0, 0] : Fin 2 → Nat) a + S4096x4.size a ≤ S4096x4.size a
  h_S4096x4 : 0 < S4096x4.numel
  dot_S4096x3_S3x64_S4096x64_1_0_0_1_n_n_wf : DotDims.WF S4096x3 S3x64 S4096x64 [1] [0] [0] [1] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []
  dot_S4096x18_S18x64_S4096x64_1_0_0_1_n_n_wf : DotDims.WF S4096x18 S18x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S1048576x6.size a
  hwx0_0 : ∀ i : grid0.Coords, EltTy.bits .f32 = 32 ∨ (Rect.block (s := S1048576x6) S4096x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18x64.size a ≤ S18x64.size a
  hwx0_4 : ∀ i : grid0.Coords, EltTy.bits .f32 = 32 ∨ (Rect.block (s := S18x64) S18x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x4.size a ≤ S1048576x4.size a
  hwx0_8 : ∀ i : grid0.Coords, EltTy.bits .f32 = 32 ∨ (Rect.block (s := S1048576x4) S4096x4.size (cc0_transform_8 i) (hinb0_8 i)).WholeWords (EltTy.packing .f32)

variable [Facts₀]

def dot_S4096x3_S3x64_S4096x64_1_0_0_1_n_n : DotDims S4096x3 S3x64 S4096x64 where
  lhsContracting := [1]
  rhsContracting := [0]
  lhsNonContracting := [0]
  rhsNonContracting := [1]
  lhsBatch := []
  rhsBatch := []
  wf := dot_S4096x3_S3x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x18_S18x64_S4096x64_1_0_0_1_n_n : DotDims S4096x18 S18x64 S4096x64 where
  lhsContracting := [1]
  rhsContracting := [0]
  lhsNonContracting := [0]
  rhsNonContracting := [1]
  lhsBatch := []
  rhsBatch := []
  wf := dot_S4096x18_S18x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S18x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4096x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S64x3 : Shape := ⟨2, ![64, 3]⟩
abbrev S1048576x3 : Shape := ⟨2, ![1048576, 3]⟩
abbrev S1048576x64 : Shape := ⟨2, ![1048576, 64]⟩
abbrev S_ : Shape := ⟨0, ![]⟩
abbrev S1048576x16 : Shape := ⟨2, ![1048576, 16]⟩
abbrev S1048576x1 : Shape := ⟨2, ![1048576, 1]⟩
abbrev S1048576 : Shape := ⟨1, ![1048576]⟩
abbrev S1048576x15 : Shape := ⟨2, ![1048576, 15]⟩
abbrev S1048576x18 : Shape := ⟨2, ![1048576, 18]⟩
abbrev S1048576x4 : Shape := ⟨2, ![1048576, 4]⟩

abbrev nBuf : Space → Nat
  | .hbm => 52
  | .vmem => 0
  | .smem => 0
  | _ => 0

abbrev bufTy : (tb : Table) → Fin (tcTables nBuf tb) → BufTy
  | .hbm, ⟨0, _⟩ => ⟨S1048576x6, .f32⟩
  | .hbm, ⟨1, _⟩ => ⟨S3x64, .f32⟩
  | .hbm, ⟨2, _⟩ => ⟨S64x64, .f32⟩
  | .hbm, ⟨3, _⟩ => ⟨S64x16, .f32⟩
  | .hbm, ⟨4, _⟩ => ⟨S18x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S1048576x3, .f32⟩
  | .hbm, ⟨9, _⟩ => ⟨S1048576x3, .f32⟩
  | .hbm, ⟨10, _⟩ => ⟨S1048576x64, .f32⟩
  | .hbm, ⟨11, _⟩ => ⟨S_, .f32⟩
  | .hbm, ⟨12, _⟩ => ⟨S1048576x64, .f32⟩
  | .hbm, ⟨13, _⟩ => ⟨S1048576x64, .f32⟩
  | .hbm, ⟨14, _⟩ => ⟨S1048576x64, .f32⟩
  | .hbm, ⟨15, _⟩ => ⟨S_, .f32⟩
  | .hbm, ⟨16, _⟩ => ⟨S1048576x64, .f32⟩
  | .hbm, ⟨17, _⟩ => ⟨S1048576x64, .f32⟩
  | .hbm, ⟨18, _⟩ => ⟨S1048576x16, .f32⟩
  | .hbm, ⟨19, _⟩ => ⟨S1048576x1, .f32⟩
  | .hbm, ⟨20, _⟩ => ⟨S1048576, .f32⟩
  | .hbm, ⟨21, _⟩ => ⟨S_, .f32⟩
  | .hbm, ⟨22, _⟩ => ⟨S1048576, .f32⟩
  | .hbm, ⟨23, _⟩ => ⟨S1048576, .f32⟩
  | .hbm, ⟨24, _⟩ => ⟨S1048576, .f32⟩
  | .hbm, ⟨25, _⟩ => ⟨S1048576, .f32⟩
  | .hbm, ⟨26, _⟩ => ⟨S1048576, .i1⟩
  | .hbm, ⟨27, _⟩ => ⟨S1048576, .f32⟩
  | .hbm, ⟨28, _⟩ => ⟨S1048576, .f32⟩
  | .hbm, ⟨29, _⟩ => ⟨S1048576, .f32⟩
  | .hbm, ⟨30, _⟩ => ⟨S1048576, .f32⟩
  | .hbm, ⟨31, _⟩ => ⟨S1048576, .f32⟩
  | .hbm, ⟨32, _⟩ => ⟨S1048576, .f32⟩
  | .hbm, ⟨33, _⟩ => ⟨S1048576, .f32⟩
  | .hbm, ⟨34, _⟩ => ⟨S1048576, .f32⟩
  | .hbm, ⟨35, _⟩ => ⟨S1048576x15, .f32⟩
  | .hbm, ⟨36, _⟩ => ⟨S1048576x18, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S_, .f32⟩
  | .hbm, ⟨43, _⟩ => ⟨S1048576x64, .f32⟩
  | .hbm, ⟨44, _⟩ => ⟨S1048576x64, .f32⟩
  | .hbm, ⟨45, _⟩ => ⟨S1048576x64, .f32⟩
  | .hbm, ⟨46, _⟩ => ⟨S_, .f32⟩
  | .hbm, ⟨47, _⟩ => ⟨S1048576x64, .f32⟩
  | .hbm, ⟨48, _⟩ => ⟨S1048576x64, .f32⟩
  | .hbm, ⟨49, _⟩ => ⟨S1048576x3, .f32⟩
  | .hbm, ⟨50, _⟩ => ⟨S1048576x1, .f32⟩
  | .hbm, ⟨51, _⟩ => ⟨S1048576x4, .f32⟩
  | _, _ => ⟨S1048576x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call2_cst : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call3_cst : Ref sig .tc := ⟨.hbm, 38, rfl⟩
abbrev main_call3_v0 : Ref sig .tc := ⟨.hbm, 39, rfl⟩
abbrev main_v13 : Ref sig .tc := ⟨.hbm, 40, rfl⟩
abbrev main_v14 : Ref sig .tc := ⟨.hbm, 41, rfl⟩
abbrev main_call4_cst : Ref sig .tc := ⟨.hbm, 42, rfl⟩
abbrev main_call4_v0 : Ref sig .tc := ⟨.hbm, 43, rfl⟩
abbrev main_v15 : Ref sig .tc := ⟨.hbm, 44, rfl⟩
abbrev main_v16 : Ref sig .tc := ⟨.hbm, 45, rfl⟩
abbrev main_call5_cst : Ref sig .tc := ⟨.hbm, 46, rfl⟩
abbrev main_call5_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]

class Facts₀ : Prop where
  slices_S1048576x6_S1048576x3_0_0 : S1048576x6.Slices ![0, 0] S1048576x3
  slices_S1048576x6_S1048576x3_0_3 : S1048576x6.Slices ![0, 3] S1048576x3
  bcast_S_S1048576x64 : S_.BroadcastsInDim S1048576x64 (![] : Fin 0 → Fin S1048576x64.rank)
  slices_S1048576x16_S1048576x1_0_0 : S1048576x16.Slices ![0, 0] S1048576x1
  shapeCasts_S1048576x1_S1048576 : S1048576x1.ShapeCasts S1048576
  bcast_S_S1048576 : S_.BroadcastsInDim S1048576 (![] : Fin 0 → Fin S1048576.rank)
  slices_S1048576x16_S1048576x15_0_1 : S1048576x16.Slices ![0, 1] S1048576x15
  concatenates_S1048576x3_S1048576x15_S1048576x18_d1 : Shape.Concatenates [S1048576x3, S1048576x15] S1048576x18 1
  bcast_S1048576_S1048576x1_0 : S1048576.BroadcastsInDim S1048576x1 (![0] : Fin 1 → Fin S1048576x1.rank)
  concatenates_S1048576x3_S1048576x1_S1048576x4_d1 : Shape.Concatenates [S1048576x3, S1048576x1] S1048576x4 1
  dot_S1048576x3_S3x64_S1048576x64_1_0_0_1_n_n_wf : DotDims.WF S1048576x3 S3x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []
  dot_S1048576x18_S18x64_S1048576x64_1_0_0_1_n_n_wf : DotDims.WF S1048576x18 S18x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x3_S3x64_S1048576x64_1_0_0_1_n_n : DotDims S1048576x3 S3x64 S1048576x64 where
  lhsContracting := [1]
  rhsContracting := [0]
  lhsNonContracting := [0]
  rhsNonContracting := [1]
  lhsBatch := []
  rhsBatch := []
  wf := dot_S1048576x3_S3x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibColumns.lean ====
/-
  Columns of a two-dimensional array, read at an entry.

  An [m, n] array is a family of m rows.  Three layout steps act on every row alike and never mix rows: taking a run of
  consecutive columns (a slice whose row offset is zero), laying two arrays with the same rows side by side (a join along
  the column axis), and passing between a vector of length m and the [m, 1] column that holds the same numbers.  Each is
  read here at an entry (p, q): the answer is an entry of an operand IN THE SAME ROW p.  A scalar spread over a whole
  array (a rank-0 broadcast) reads the scalar everywhere.  Stated for any element type and any extents.
-/
import Idealize.ShloMosaic.Lib.Pipeline.Value
import Idealize.ShloMosaic.Lib.ValueIdx

noncomputable section

namespace Columns

open Idealize.ShloMosaic Idealize.ShloMosaic.ValueIdx

variable {α : Type}

/-- Column q of a run of n' columns that starts at column o is column o + q of the full row. -/
def shiftCol (o : ℕ) {n' n : ℕ} (h : o + n' ≤ n) (q : Fin n') : Fin n := ⟨o + q.val, by have := q.isLt; omega⟩

@[simp] theorem shiftCol_val (o : ℕ) {n' n : ℕ} (h : o + n' ≤ n) (q : Fin n') : (shiftCol o h q).val = o + q.val := rfl

/-- Two rows laid end to end: the first a entries come from u, the remaining b from v. -/
def joinCols {a b n : ℕ} (hn : n = a + b) (u : Fin a → α) (v : Fin b → α) (q : Fin n) : α :=
  if hq : q.val < a then u ⟨q.val, hq⟩ else v ⟨q.val - a, by have := q.isLt; omega⟩

theorem joinCols_of_lt {a b n : ℕ} (hn : n = a + b) (u : Fin a → α) (v : Fin b → α) (q : Fin n) (hq : q.val < a) :
    joinCols hn u v q = u ⟨q.val, hq⟩ := dif_pos hq

theorem joinCols_of_ge {a b n : ℕ} (hn : n = a + b) (u : Fin a → α) (v : Fin b → α) (q : Fin n) (hq : a ≤ q.val) :
    joinCols hn u v q = v ⟨q.val - a, by have := q.isLt; omega⟩ := dif_neg (Nat.not_lt.2 hq)

/-- A slice with row offset zero and column offset o fits: o plus its width is at most the operand's width. -/
theorem slices_width {m n n' o : ℕ} (h : (⟨2, ![m, n]⟩ : Shape).Slices ![0, o] ⟨2, ![m, n']⟩) : o + n' ≤ n :=
  h.2 1

/-- A run of columns read at (p, q): the operand at row p, column o + q. -/
theorem slice_cols_apply {m n n' o : ℕ} (x : (⟨2, ![m, n]⟩ : Shape).Idx → α)
    (h : (⟨2, ![m, n]⟩ : Shape).Slices ![0, o] ⟨2, ![m, n']⟩) (p : Fin m) (q : Fin n') :
    extractStridedSlice ⟨2, ![m, n']⟩ ![0, o] x h (ix2 p q) = x (ix2 p (shiftCol o (slices_width h) q)) :=
  extractStridedSlice_apply ![0, o] x h (ix2 p q) _ (fun a => match a with
    | ⟨0, _⟩ => by show p.val = 0 + p.val; omega
    | ⟨1, _⟩ => rfl)

/-- Two arrays with the same rows joined along the columns, read at (p, q): row p of the first while q is below its
    width, else row p of the second at q less that width. -/
theorem concat_cols_apply {m a b n : ℕ} (hn : n = a + b) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (p : Fin m) (q : Fin n) :
    concatenate ⟨2, ![m, n]⟩ 1 [⟨⟨2, ![m, a]⟩, x₁⟩, ⟨⟨2, ![m, b]⟩, x₂⟩] h (ix2 p q)
      = joinCols hn (fun j => x₁ (ix2 p j)) (fun j => x₂ (ix2 p j)) q := by
  by_cases hq : q.val < a
  · rw [joinCols_of_lt hn _ _ q hq]
    exact concatenate_pair_apply_left 1 x₁ x₂ h (ix2 p q) rfl (ix2 p ⟨q.val, hq⟩) (fun c => match c with
      | ⟨0, _⟩ => rfl
      | ⟨1, _⟩ => rfl)
  · have hge : a ≤ q.val := Nat.not_lt.1 hq
    rw [joinCols_of_ge hn _ _ q hge]
    refine concatenate_pair_apply_right 1 x₁ x₂ h (ix2 p q) rfl rfl (ix2 p ⟨q.val - a, by have := q.isLt; omega⟩) (fun c hc => ?_) ?_
    · match c with
      | ⟨0, _⟩ => rfl
      | ⟨1, _⟩ => exact absurd rfl hc
    · show q.val - a + a = q.val
      omega

/-- An [m, 1] column cast to a vector of length m reads, at p, the column's entry in row p. -/
theorem column_to_vector_apply {m : ℕ} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    omega)

/-- A vector of length m cast to an [m, 1] column reads, at (p, u), the vector's entry p. -/
theorem vector_to_column_apply {m : ℕ} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length m broadcast along a new unit column axis reads, at (p, u), the vector's entry p. -/
theorem vector_bcast_column_apply {m : ℕ} (dims : Fin 1 → Fin 2) (hd : dims 0 = 0)
    (h : (⟨1, ![m]⟩ : Shape).BroadcastsInDim ⟨2, ![m, 1]⟩ dims) (x : (⟨1, ![m]⟩ : Shape).Idx → α) (p : Fin m) (u : Fin 1) :
    broadcastInDim ⟨2, ![m, 1]⟩ dims h x (ix2 p u) = x (ix1 p) := by
  refine broadcastInDim_apply dims h x (ix2 p u) (ix1 p) fun c => ?_
  match c with
  | ⟨0, _⟩ =>
    show p.val = if m = 1 then 0 else ((ix2 p u : (⟨2, ![m, 1]⟩ : Shape).Idx) (dims 0)).val
    rw [hd]
    show p.val = if m = 1 then 0 else p.val
    split
    · have := p.isLt; omega
    · rfl

/-- A scalar spread over a whole array reads the scalar at every index. -/
theorem scalar_bcast_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 fun c => c.elim0

end Columns

end
-- ==== Proof.Spec.lean ====
/-
  One sample of the two small networks, as a function of one row.

  Row r of the input holds six numbers: a point (columns 0-2) and a viewing direction (columns 3-5).  The density network
  sends the point through three bias-free dense layers (3 -> 64 -> 64 -> 16) with max(., 0) after the first two; entry 0
  of its 16 outputs, through softplus, is the density, and entries 1-15 are a feature vector.  The colour network sends
  the direction followed by the features (18 numbers) through four bias-free dense layers (18 -> 64 -> 64 -> 64 -> 3) with
  max(., 0) after the first three.  The result row is the three colours followed by the density.

  Nothing in a row's result depends on any other row: that is why a kernel that works on blocks of rows and a reference
  that works on the whole array agree.  Over the extended reals a dense layer is the plain sum of products, whatever
  format the factors were rounded to and in whatever order a machine adds them.
-/
import Idealize.ShloMosaic.PureOps.Ideal
import Idealize.ShloMosaic.PureOps.Ideal.Laws
import Idealize.ShloMosaic.Lib.ValueIdx
import proofs.«162501_j45835890983142_1_alg».proof.Proof.LibColumns

noncomputable section

open scoped BigOperators

namespace SampleRow

open Idealize.ShloMosaic Idealize.ShloMosaic.ValueIdx Columns

/-- A k-by-n weight matrix, indexed as the programs index their arrays. -/
abbrev Mat (k n : ℕ) : Type := (⟨2, ![k, n]⟩ : Shape).Idx → EReal

/-- A dense layer without bias on one row: entry j is the sum over i of a i times w (i, j). -/
def dense {k n : ℕ} (a : Fin k → EReal) (w : Mat k n) : Fin n → EReal := fun j => ∑ i : Fin k, a i * w (ix2 i j)

/-- max(., 0), entry by entry. -/
def relu {n : ℕ} (a : Fin n → EReal) : Fin n → EReal := fun j => max (a j) 0

/-- softplus z = log (1 + e^z), in the overflow-free form max(z, 0) + log (1 + e^(-|z|)), with |z| = max(z, -z). -/
def softplus (z : EReal) : EReal := max z 0 + Ideal.log1p (Ideal.exp (-(max z (-z))))

/-- The density network's 16 outputs for one row. -/
def hidden (x : Fin 6 → EReal) (ws0 : Mat 3 64) (ws1 : Mat 64 64) (ws2 : Mat 64 16) : Fin 16 → EReal :=
  dense (relu (dense (relu (dense (fun k : Fin 3 => x (shiftCol 0 (by norm_num) k)) ws0)) ws1)) ws2

/-- The density: softplus of output 0. -/
def density (x : Fin 6 → EReal) (ws0 : Mat 3 64) (ws1 : Mat 64 64) (ws2 : Mat 64 16) : EReal :=
  softplus (hidden x ws0 ws1 ws2 0)

/-- The colour network's 18 inputs: the direction (columns 3-5 of the row), then outputs 1-15 of the density network. -/
def colorIn (x : Fin 6 → EReal) (ws0 : Mat 3 64) (ws1 : Mat 64 64) (ws2 : Mat 64 16) : Fin 18 → EReal :=
  joinCols (a := 3) (b := 15) rfl (fun k : Fin 3 => x (shiftCol 3 (by norm_num) k))
    (fun k : Fin 15 => hidden x ws0 ws1 ws2 (shiftCol 1 (by norm_num) k))

/-- The colour network after its first layer, from that layer's 64 outputs. -/
def colorTail (c : Fin 64 → EReal) (wc1 : Mat 64 64) (wc2 : Mat 64 64) (wc3 : Mat 64 3) : Fin 3 → EReal :=
  dense (relu (dense (relu (dense (relu c) wc1)) wc2)) wc3

/-- The result row: three colours, then the density. -/
def out (x : Fin 6 → EReal) (ws0 : Mat 3 64) (ws1 : Mat 64 64) (ws2 : Mat 64 16) (wc0 : Mat 18 64) (wc1 : Mat 64 64)
    (wc2 : Mat 64 64) (wc3 : Mat 64 3) : Fin 4 → EReal :=
  joinCols (a := 3) (b := 1) rfl (colorTail (dense (colorIn x ws0 ws1 ws2) wc0) wc1 wc2 wc3)
    (fun _ : Fin 1 => density x ws0 ws1 ws2)

/-- THE WHOLE RESULT: entry (r, q) is entry q of the sample function of row r of the input. -/
def whole (x : (⟨2, ![1048576, 6]⟩ : Shape).Idx → EReal) (ws0 : Mat 3 64) (ws1 : Mat 64 64) (ws2 : Mat 64 16) (wc0 : Mat 18 64)
    (wc1 : Mat 64 64) (wc2 : Mat 64 64) (wc3 : Mat 64 3) : (⟨2, ![1048576, 4]⟩ : Shape).Idx → EReal :=
  fun i => out (fun k => x (ix2 (i 0) k)) ws0 ws1 ws2 wc0 wc1 wc2 wc3 (i 1)

/-- No extended real differs from itself: the "not equal to itself" test, which singles out a not-a-number among
    machine floats, never fires. -/
theorem cmp_self_one (z : EReal) : Ideal.cmp .one z z = 0#1 := by simp [Ideal.cmp]
theorem cmp_self_une (z : EReal) : Ideal.cmp .une z z = 0#1 := by simp [Ideal.cmp]

/-- softplus as one program spells it: the guard's branch is never taken, z - 0 is z, and 0 - |z| is -|z|. -/
theorem softplus_sub (z : EReal) :
    Scalar.select (Ideal.cmp .one (z - 0) (z - 0)) (z + 0) (max z 0 + Ideal.log1p (Ideal.exp (0 - max (z - 0) (-(z - 0)))))
      = softplus z := by
  rw [cmp_self_one, select_zero, sub_zero, zero_sub]; rfl

/-- softplus as the other spells it: the same with a negation in place of the subtraction from zero. -/
theorem softplus_neg (z : EReal) :
    Scalar.select (Ideal.cmp .une (z - 0) (z - 0)) (z + 0) (max z 0 + Ideal.log1p (Ideal.exp (-(max (z - 0) (-(z - 0))))))
      = softplus z := by
  rw [cmp_self_une, select_zero, sub_zero]; rfl

end SampleRow

end
-- ==== Proof.KernelRow.lean ====
/-
  The kernel's stored block, entry by entry.

  One grid step loads a block of 4096 rows of the input and the seven weight matrices whole, and stores a [4096, 4]
  block.  Entry (p, q) of what it stores is entry q of the sample function of ROW p OF THE LOADED BLOCK: every matrix
  product contracts along a row, every other step is entrywise or moves columns inside a row.  The products take
  operands rounded to a shorter format; over the extended reals the rounding is the identity.
-/
import proofs.«162501_j45835890983142_1_alg».proof.Proof.Gen.KernelIdeal.Skeleton
import proofs.«162501_j45835890983142_1_alg».proof.Proof.LibPlainDot
import proofs.«162501_j45835890983142_1_alg».proof.Proof.LibColumns
import proofs.«162501_j45835890983142_1_alg».proof.Proof.Spec
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Columns SampleRow

/-- Row p of a loaded [4096, 6] block. -/
abbrev rowOf (x0 : Vec Ideal S4096x6 .f32) (p : Fin 4096) : Fin 6 → EReal := fun k => x0 (ix2 p k)

theorem plain0 : PlainDot.IsPlain dot_S4096x3_S3x64_S4096x64_1_0_0_1_n_n := ⟨rfl, rfl, rfl, rfl, rfl, rfl⟩
theorem plain1 : PlainDot.IsPlain dot_S4096x64_S64x64_S4096x64_1_0_0_1_n_n := ⟨rfl, rfl, rfl, rfl, rfl, rfl⟩
theorem plain2 : PlainDot.IsPlain dot_S4096x64_S64x16_S4096x16_1_0_0_1_n_n := ⟨rfl, rfl, rfl, rfl, rfl, rfl⟩
theorem plain3 : PlainDot.IsPlain dot_S4096x18_S18x64_S4096x64_1_0_0_1_n_n := ⟨rfl, rfl, rfl, rfl, rfl, rfl⟩
theorem plain4 : PlainDot.IsPlain dot_S4096x64_S64x3_S4096x3_1_0_0_1_n_n := ⟨rfl, rfl, rfl, rfl, rfl, rfl⟩

/-- The density network's third product, at (p, q): output q of the network on row p. -/
theorem hidden_apply (x0 : Vec Ideal S4096x6 .f32) (w0 : Vec Ideal S3x64 .f32) (w1 : Vec Ideal S64x64 .f32) (w2 : Vec Ideal S64x16 .f32)
    (p : Fin 4096) (q : Fin 16) :
    k0_pay2 (F := Ideal) x0 w0 w1 w2 (ix2 p q) = hidden (rowOf x0 p) w0 w1 w2 q := by
  unfold k0_pay2
  simp only [PlainDot.matmul_zero_apply plain0, PlainDot.matmul_zero_apply plain1, PlainDot.matmul_zero_apply plain2,
    truncf_apply, maximumf_apply, broadcast_apply, slice_cols_apply, Ideal.ofBits_def, Ideal.ofBits_zero_f32]
  rfl

/-- The entrywise transcendental steps, read at an index. -/
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

/-- The softplus of the first output column, at p: the density of row p. -/
theorem density_apply (x0 : Vec Ideal S4096x6 .f32) (w0 : Vec Ideal S3x64 .f32) (w1 : Vec Ideal S64x64 .f32) (w2 : Vec Ideal S64x16 .f32)
    (p : Fin 4096) :
    k0_pay3 (F := Ideal) x0 w0 w1 w2 (ix1 p) = density (rowOf x0 p) w0 w1 w2 := by
  unfold k0_pay3
  simp only [select_apply, cmpf_apply, addf_apply, subf_apply, maximumf_apply, broadcast_apply, exp_apply, log1p_apply, absf_apply,
    column_to_vector_apply, slice_cols_apply, hidden_apply, Ideal.ofBits_def, Ideal.ofBits_zero_f32, Ideal.cmpf_def]
  exact softplus_sub _

/-- The colour network's first product, at (p, q): the first layer on row p's 18 inputs. -/
theorem color0_apply (x0 : Vec Ideal S4096x6 .f32) (w0 : Vec Ideal S3x64 .f32) (w1 : Vec Ideal S64x64 .f32) (w2 : Vec Ideal S64x16 .f32)
    (w3 : Vec Ideal S18x64 .f32) (p : Fin 4096) (q : Fin 64) :
    k0_pay4 (F := Ideal) x0 w0 w1 w2 w3 (ix2 p q) = dense (colorIn (rowOf x0 p) w0 w1 w2) w3 q := by
  unfold k0_pay4
  simp only [PlainDot.matmul_zero_apply plain3, truncf_apply, concat_cols_apply (a := 3) (b := 15) (n := 18) rfl,
    slice_cols_apply, hidden_apply]
  rfl

/-- The stored value, at (p, q), from the density vector and the colour network's first product. -/
theorem store_apply (v34 : FVec Ideal S4096 .f32) (v40 : FVec Ideal S4096x64 .f32) (w4 : Vec Ideal S64x64 .f32) (w5 : Vec Ideal S64x64 .f32)
    (w6 : Vec Ideal S64x3 .f32) (p : Fin 4096) (q : Fin 4) :
    k0_pay1 (F := Ideal) v34 v40 w4 w5 w6 (ix2 p q)
      = joinCols (a := 3) (b := 1) rfl (colorTail (fun j => v40 (ix2 p j)) w4 w5 w6) (fun _ : Fin 1 => v34 (ix1 p)) q := by
  unfold k0_pay1
  simp only [PlainDot.matmul_zero_apply plain1, PlainDot.matmul_zero_apply plain4, truncf_apply, maximumf_apply, broadcast_apply,
    concat_cols_apply (a := 3) (b := 1) (n := 4) rfl, vector_to_column_apply, Ideal.ofBits_def, Ideal.ofBits_zero_f32]
  rfl

/-- ENTRY (p, q) OF THE STORED BLOCK is entry q of the sample function of row p of the loaded block. -/
theorem stored_apply (x0 : Vec Ideal S4096x6 .f32) (w0 : Vec Ideal S3x64 .f32) (w1 : Vec Ideal S64x64 .f32) (w2 : Vec Ideal S64x16 .f32)
    (w3 : Vec Ideal S18x64 .f32) (w4 : Vec Ideal S64x64 .f32) (w5 : Vec Ideal S64x64 .f32) (w6 : Vec Ideal S64x3 .f32)
    (p : Fin 4096) (q : Fin 4) :
    k0_pay1 (F := Ideal) (k0_pay3 x0 w0 w1 w2) (k0_pay4 x0 w0 w1 w2 w3) w4 w5 w6 (ix2 p q)
      = out (rowOf x0 p) w0 w1 w2 w3 w4 w5 w6 q := by
  rw [store_apply, density_apply]
  have e : (fun j => k0_pay4 (F := Ideal) x0 w0 w1 w2 w3 (ix2 p j)) = dense (colorIn (rowOf x0 p) w0 w1 w2) w3 :=
    funext fun j => color0_apply x0 w0 w1 w2 w3 p j
  rw [e]
  rfl

end Cert.KernelIdeal.Row

end
-- ==== Proof.KernelArray.lean ====
/-
  From the stored blocks to the result array.

  Grid step t loads rows 4096 t ... 4096 t + 4095 of the input (and every weight matrix whole: their block index never
  moves) and writes rows 4096 t ... 4096 t + 4095 of the result.  Row p of the loaded block is row 4096 t + p of the
  input, so by the entrywise reading of the stored block, what step t writes back is exactly block t of the whole-array
  function.  The 256 blocks cover all 1048576 rows (row r lies in block r / 4096), so after the run the result array IS
  that function of the argument arrays.
-/
import proofs.«162501_j45835890983142_1_alg».proof.Proof.Gen.KernelIdeal.Value
import proofs.«162501_j45835890983142_1_alg».proof.Proof.KernelRow
import Idealize.ShloMosaic.Lib.Pipeline.Value

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Value Idealize.ShloMosaic.ValueIdx SampleRow

variable (m : (ℓ : Loc nD τ sig) → Buf (Elt Ideal) ℓ) (ρ : Dev nD → PrngReg)

theorem hz : (![0, 0] : Fin 2 → Nat) = fun _ => 0 := funext fun a => by fin_cases a <;> rfl

/-- An entry of the stored block against an entry of the whole-array function: equal as soon as the block's row is the
    array's row (column by column of the input), the weights are the arguments, and the two columns agree. -/
theorem stored_entry (x0 : Vec Ideal S4096x6 .f32) (b1 : Vec Ideal S3x64 .f32) (b2 : Vec Ideal S64x64 .f32) (b3 : Vec Ideal S64x16 .f32)
    (b4 : Vec Ideal S18x64 .f32) (b5 : Vec Ideal S64x64 .f32) (b6 : Vec Ideal S64x64 .f32) (b7 : Vec Ideal S64x3 .f32)
    (X : S1048576x6.Idx → EReal) (W1 : S3x64.Idx → EReal) (W2 : S64x64.Idx → EReal) (W3 : S64x16.Idx → EReal)
    (W4 : S18x64.Idx → EReal) (W5 : S64x64.Idx → EReal) (W6 : S64x64.Idx → EReal) (W7 : S64x3.Idx → EReal)
    (y : S4096x4.Idx) (i : S1048576x4.Idx)
    (hx : ∀ k : Fin 6, x0 (ix2 (y 0) k) = X (ix2 (i 0) k))
    (h1 : b1 = W1) (h2 : b2 = W2) (h3 : b3 = W3) (h4 : b4 = W4) (h5 : b5 = W5) (h6 : b6 = W6) (h7 : b7 = W7)
    (hq : (y 1).val = (i 1).val) :
    k0_pay1 (F := Ideal) (k0_pay3 x0 b1 b2 b3) (k0_pay4 x0 b1 b2 b3 b4) b5 b6 b7 y = whole X W1 W2 W3 W4 W5 W6 W7 i := by
  subst h1 h2 h3 h4 h5 h6 h7
  obtain ⟨p, q, rfl⟩ : ∃ (p : Fin 4096) (q : Fin 4), y = ix2 p q := ⟨y 0, y 1, eq_ix2 y⟩
  rw [Row.stored_apply]
  have hrow : Row.rowOf x0 p = fun k => X (ix2 (i 0) k) := funext hx
  have hcol : q = i 1 := Fin.ext hq
  rw [hrow, hcol]
  rfl

/-- The printed index maps, decided over the 256 grid points: the input's and the result's block index on the row axis
    is the point itself, and every other block index is zero. -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A weight window's block is the whole argument: its block index is zero on both axes at every point. -/
theorem wblk1 (c : Dev nD) (t : Fin cfg0.N) : (iblk m c 1 t : Vec Ideal S3x64 .f32) = V m c main_arg1 := by
  obtain ⟨a0, a1, o0, o1, e10, e11, e20, e21, e30, e31, e40, e41, e50, e51, e60, e61, e70, e71⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 64 + 1 * (y 1).val = (y 1).val; omega

theorem wblk2 (c : Dev nD) (t : Fin cfg0.N) : (iblk m c 2 t : Vec Ideal S64x64 .f32) = V m c main_arg2 := by
  obtain ⟨a0, a1, o0, o1, e10, e11, e20, e21, e30, e31, e40, e41, e50, e51, e60, e61, e70, e71⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem wblk3 (c : Dev nD) (t : Fin cfg0.N) : (iblk m c 3 t : Vec Ideal S64x16 .f32) = V m c main_arg3 := by
  obtain ⟨a0, a1, o0, o1, e10, e11, e20, e21, e30, e31, e40, e41, e50, e51, e60, e61, e70, e71⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega

theorem wblk4 (c : Dev nD) (t : Fin cfg0.N) : (iblk m c 4 t : Vec Ideal S18x64 .f32) = V m c main_arg4 := by
  obtain ⟨a0, a1, o0, o1, e10, e11, e20, e21, e30, e31, e40, e41, e50, e51, e60, e61, e70, e71⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 18 + 1 * (y 0).val = (y 0).val; omega
  | ⟨1, _⟩ => show win0_4.index t (1 : Fin 2) * 64 + 1 * (y 1).val = (y 1).val; omega

theorem wblk5 (c : Dev nD) (t : Fin cfg0.N) : (iblk m c 5 t : Vec Ideal S64x64 .f32) = V m c main_arg5 := by
  obtain ⟨a0, a1, o0, o1, e10, e11, e20, e21, e30, e31, e40, e41, e50, e51, e60, e61, e70, e71⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem wblk6 (c : Dev nD) (t : Fin cfg0.N) : (iblk m c 6 t : Vec Ideal S64x64 .f32) = V m c main_arg6 := by
  obtain ⟨a0, a1, o0, o1, e10, e11, e20, e21, e30, e31, e40, e41, e50, e51, e60, e61, e70, e71⟩ := idx_facts t
  funext y
  show V m c main_arg6 (((cfg0.win 6).blk t).view.emb y) = V m c main_arg6 y
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem wblk7 (c : Dev nD) (t : Fin cfg0.N) : (iblk m c 7 t : Vec Ideal S64x3 .f32) = V m c main_arg7 := by
  obtain ⟨a0, a1, o0, o1, e10, e11, e20, e21, e30, e31, e40, e41, e50, e51, e60, e61, e70, e71⟩ := idx_facts t
  funext y
  show V m c main_arg7 (((cfg0.win 7).blk t).view.emb y) = V m c main_arg7 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 3 + 1 * (y 1).val = (y 1).val; omega

/-- Row p of the input window's block at point t is row 4096 t + p of the input: the row the result window's block
    puts its own row p at. -/
theorem xblk_row (c : Dev nD) (t : Fin cfg0.N) (y : S4096x4.Idx) (k : Fin 6) :
    (iblk m c 0 t : Vec Ideal S4096x6 .f32) (ix2 (y 0) k)
      = V m c main_arg0 (ix2 ((((cfg0.win 8).blk t).view.emb y : S1048576x4.Idx) 0) k) := by
  obtain ⟨a0, a1, o0, o1, e10, e11, e20, e21, e30, e31, e40, e41, e50, e51, e60, e61, e70, e71⟩ := idx_facts t
  show V m c main_arg0 (((cfg0.win 0).blk t).view.emb (ix2 (y 0) k)) = V m c main_arg0 _
  refine congrArg _ (funext fun a => Fin.ext ?_)
  match a with
  | ⟨0, _⟩ => show win0_0.index t (0 : Fin 2) * 4096 + 1 * (y 0).val = win0_8.index t (0 : Fin 2) * 4096 + 1 * (y 0).val; omega
  | ⟨1, _⟩ => show win0_0.index t (1 : Fin 2) * 6 + 1 * k.val = k.val; omega

/-- The whole-array function of the arguments as the region finds them. -/
abbrev target (c : Dev nD) : S1048576x4.Idx → EReal :=
  whole (V m c main_arg0) (V m c main_arg1) (V m c main_arg2) (V m c main_arg3) (V m c main_arg4) (V m c main_arg5)
    (V m c main_arg6) (V m c main_arg7)

/-- WHAT POINT t WRITES BACK is block t of the whole-array function. -/
theorem flushed8_eq (c : Dev nD) (t : Fin cfg0.N) :
    (dats m 0 c).flushed 8 t = ((cfg0.win 8).blk t).view.read (Elt Ideal) (target m c) := by
  rw [flushed8]
  unfold out0_8
  rw [View.canon_unit_zero hz]
  simp only [View.ld_unit_zero (S := S4096x6) hz, View.ld_unit_zero (S := S3x64) hz, View.ld_unit_zero (S := S64x64) hz,
    View.ld_unit_zero (S := S64x16) hz, View.ld_unit_zero (S := S18x64) hz, View.ld_unit_zero (S := S64x3) hz]
  obtain ⟨a0, a1, o0, o1, e10, e11, e20, e21, e30, e31, e40, e41, e50, e51, e60, e61, e70, e71⟩ := idx_facts t
  funext y
  show k0_pay1 (F := Ideal) (k0_pay3 (iblk m c 0 t) (iblk m c 1 t) (iblk m c 2 t) (iblk m c 3 t))
      (k0_pay4 (iblk m c 0 t) (iblk m c 1 t) (iblk m c 2 t) (iblk m c 3 t) (iblk m c 4 t)) (iblk m c 5 t) (iblk m c 6 t) (iblk m c 7 t) y
    = target m c (((cfg0.win 8).blk t).view.emb y)
  exact stored_entry (iblk m c 0 t) (iblk m c 1 t) (iblk m c 2 t) (iblk m c 3 t) (iblk m c 4 t) (iblk m c 5 t) (iblk m c 6 t) (iblk m c 7 t)
    (V m c main_arg0) (V m c main_arg1) (V m c main_arg2) (V m c main_arg3) (V m c main_arg4) (V m c main_arg5) (V m c main_arg6) (V m c main_arg7)
    y (((cfg0.win 8).blk t).view.emb y) (xblk_row m c t y) (wblk1 m c t) (wblk2 m c t) (wblk3 m c t) (wblk4 m c t) (wblk5 m c t) (wblk6 m c t) (wblk7 m c t)
    (by show (y 1).val = win0_8.index t (1 : Fin 2) * 4 + 1 * (y 1).val; omega)

/-- An index of the result array is in point t's block iff each coordinate is in the block's range on its axis. -/
theorem mem_blk8 (t : Fin cfg0.N) (i : S1048576x4.Idx) :
    i ∈ ((cfg0.win 8).blk t).view.set ↔ ∀ a : Fin 2, win0_8.index t a * S4096x4.size a ≤ (i a).val ∧ (i a).val < win0_8.index t a * S4096x4.size a + S4096x4.size a := by
  show i ∈ ((View.whole main_v0).slice (win0_8.rect t)).set ↔ _
  rw [View.set_slice_whole, Rect.mem_set_unit]
  exact Iff.rfl

/-- Every index of the result array is in some point's block: row r is in block r / 4096. -/
theorem covered8 (i : S1048576x4.Idx) : ∃ t : Fin cfg0.N, (cfg0.win 8).flush t = true ∧ i ∈ ((cfg0.win 8).blk t).view.set := by
  have hi0 : (i 0).val < 1048576 := (i 0).isLt
  have hi1 : (i 1).val < 4 := (i 1).isLt
  have hlt : (i 0).val / 4096 < cfg0.N := by show _ < grid0.N; rw [N_0]; omega
  refine ⟨⟨(i 0).val / 4096, hlt⟩, flush0_8 _, ?_⟩
  rw [mem_blk8]
  obtain ⟨a0, a1, o0, o1, e10, e11, e20, e21, e30, e31, e40, e41, e50, e51, e60, e61, e70, e71⟩ := idx_facts ⟨(i 0).val / 4096, hlt⟩
  intro a
  match a with
  | ⟨0, _⟩ =>
    show win0_8.index ⟨(i 0).val / 4096, hlt⟩ (0 : Fin 2) * 4096 ≤ (i 0).val
      ∧ (i 0).val < win0_8.index ⟨(i 0).val / 4096, hlt⟩ (0 : Fin 2) * 4096 + 4096
    rw [o0]
    show (i 0).val / 4096 * 4096 ≤ (i 0).val ∧ (i 0).val < (i 0).val / 4096 * 4096 + 4096
    omega
  | ⟨1, _⟩ =>
    show win0_8.index ⟨(i 0).val / 4096, hlt⟩ (1 : Fin 2) * 4 ≤ (i 1).val
      ∧ (i 1).val < win0_8.index ⟨(i 0).val / 4096, hlt⟩ (1 : Fin 2) * 4 + 4
    rw [o1]
    omega

/-- THE RESULT ARRAY after the run is the whole-array function of the arguments. -/
theorem final8 (c : Dev nD) : (dats m 0 c).arrAt 8 cfg0.N = target m c :=
  (dats m 0 c).arrAt_eq_of_cover 8 (target m c) (fun t _ => flushed8_eq m c t) covered8

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (run_blocks m ρ)

end Cert.KernelIdeal.Array

end
-- ==== Proof.RefRow.lean ====
/-
  The reference's result, entry by entry.

  The reference applies the same layers to the whole [1048576, 6] array at once.  Entry (r, q) of its result is entry q
  of the sample function of ROW r OF THE INPUT: each matrix product contracts along a row of its left operand, the
  slices and joins move columns inside a row, and everything else is entrywise.
-/
import proofs.«162501_j45835890983142_1_alg».proof.Proof.Gen.ReferenceIdeal.Read
import proofs.«162501_j45835890983142_1_alg».proof.Proof.LibPlainDot
import proofs.«162501_j45835890983142_1_alg».proof.Proof.LibColumns
import proofs.«162501_j45835890983142_1_alg».proof.Proof.Spec
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx Columns SampleRow

/-- Row r of the [1048576, 6] input. -/
abbrev rowOf (x0 : (⟨S1048576x6, .f32⟩ : BufTy).Contents (Elt Ideal)) (r : Fin 1048576) : Fin 6 → EReal := fun k => x0 (ix2 r k)

theorem plain0 : PlainDot.IsPlain dot_S1048576x3_S3x64_S1048576x64_1_0_0_1_n_n := ⟨rfl, rfl, rfl, rfl, rfl, rfl⟩
theorem plain1 : PlainDot.IsPlain dot_S1048576x64_S64x64_S1048576x64_1_0_0_1_n_n := ⟨rfl, rfl, rfl, rfl, rfl, rfl⟩
theorem plain2 : PlainDot.IsPlain dot_S1048576x64_S64x16_S1048576x16_1_0_0_1_n_n := ⟨rfl, rfl, rfl, rfl, rfl, rfl⟩
theorem plain3 : PlainDot.IsPlain dot_S1048576x18_S18x64_S1048576x64_1_0_0_1_n_n := ⟨rfl, rfl, rfl, rfl, rfl, rfl⟩
theorem plain4 : PlainDot.IsPlain dot_S1048576x64_S64x3_S1048576x3_1_0_0_1_n_n := ⟨rfl, rfl, rfl, rfl, rfl, rfl⟩

/-- The host's entrywise steps, read at an index. -/
theorem hexp_apply {s : Shape} {φ : FTy} (a : FVec Ideal s φ) (i : s.Idx) : Host.exp a i = Ideal.exp (a i) := rfl
theorem hlog1p_apply {s : Shape} {φ : FTy} (a : FVec Ideal s φ) (i : s.Idx) : Host.log1p a i = Ideal.log1p (a i) := rfl
theorem hnegf_apply {s : Shape} {φ : FTy} (a : FVec Ideal s φ) (i : s.Idx) : Host.negf a i = -(a i) := rfl
theorem habsf_apply {s : Shape} {φ : FTy} (a : FVec Ideal s φ) (i : s.Idx) : Host.absf a i = max (a i) (-(a i)) := rfl

/-- The density network's third product, at (r, q): output q of the network on row r. -/
theorem hidden_apply (x0 : (⟨S1048576x6, .f32⟩ : BufTy).Contents (Elt Ideal)) (x1 : (⟨S3x64, .f32⟩ : BufTy).Contents (Elt Ideal)) (x2 : (⟨S64x64, .f32⟩ : BufTy).Contents (Elt Ideal)) (x3 : (⟨S64x16, .f32⟩ : BufTy).Contents (Elt Ideal))
    (r : Fin 1048576) (q : Fin 16) :
    val_main_v6 (F := Ideal) x0 x1 x2 x3 (ix2 r q) = hidden (rowOf x0 r) x1 x2 x3 q := by
  unfold val_main_v6 val_main_v5 val_main_v4 val_main_v3 val_main_v2 val_main_v0 val_main_call0_v0 val_main_call0_cst
    val_main_call1_v0 val_main_call1_cst
  simp only [Host.dotGeneral, PlainDot.dotGeneral_apply plain0, PlainDot.dotGeneral_apply plain1, PlainDot.dotGeneral_apply plain2,
    maximumf_apply, scalar_bcast_apply, constant_apply, slice_cols_apply, Ideal.ofBits_zero_f32]
  rfl

/-- The softplus of the first output column, at r: the density of row r. -/
theorem density_apply (x0 : (⟨S1048576x6, .f32⟩ : BufTy).Contents (Elt Ideal)) (x1 : (⟨S3x64, .f32⟩ : BufTy).Contents (Elt Ideal)) (x2 : (⟨S64x64, .f32⟩ : BufTy).Contents (Elt Ideal)) (x3 : (⟨S64x16, .f32⟩ : BufTy).Contents (Elt Ideal))
    (r : Fin 1048576) :
    val_main_v9 (F := Ideal) x0 x1 x2 x3 (ix1 r) = density (rowOf x0 r) x1 x2 x3 := by
  unfold val_main_v9 val_main_call2_v4 val_main_call2_v6 val_main_call2_v11 val_main_call2_v1 val_main_call2_v10 val_main_call2_v9
    val_main_call2_v8 val_main_call2_v7 val_main_call2_v3 val_main_call2_v2 val_main_call2_v5 val_main_call2_v0 val_main_call2_cst
    val_main_v8 val_main_v7
  simp only [select_apply, cmpf_apply, addf_apply, subf_apply, maximumf_apply, hexp_apply, hlog1p_apply, hnegf_apply, habsf_apply,
    scalar_bcast_apply, constant_apply, column_to_vector_apply, slice_cols_apply, hidden_apply, Ideal.ofBits_zero_f32, Ideal.cmpf_def]
  exact softplus_neg _

/-- The colour network's first product, at (r, q): the first layer on row r's 18 inputs. -/
theorem color0_apply (x0 : (⟨S1048576x6, .f32⟩ : BufTy).Contents (Elt Ideal)) (x1 : (⟨S3x64, .f32⟩ : BufTy).Contents (Elt Ideal)) (x2 : (⟨S64x64, .f32⟩ : BufTy).Contents (Elt Ideal)) (x3 : (⟨S64x16, .f32⟩ : BufTy).Contents (Elt Ideal)) (x4 : (⟨S18x64, .f32⟩ : BufTy).Contents (Elt Ideal))
    (r : Fin 1048576) (q : Fin 64) :
    val_main_v12 (F := Ideal) x0 x1 x2 x3 x4 (ix2 r q) = dense (colorIn (rowOf x0 r) x1 x2 x3) x4 q := by
  unfold val_main_v12 val_main_v11 val_main_v10 val_main_v1
  simp only [Host.dotGeneral, PlainDot.dotGeneral_apply plain3, concat_cols_apply (a := 3) (b := 15) (n := 18) rfl,
    slice_cols_apply, hidden_apply]
  rfl

/-- ENTRY (r, q) OF THE REFERENCE'S RESULT is entry q of the sample function of row r of the input. -/
theorem result_apply (x0 : (⟨S1048576x6, .f32⟩ : BufTy).Contents (Elt Ideal)) (x1 : (⟨S3x64, .f32⟩ : BufTy).Contents (Elt Ideal)) (x2 : (⟨S64x64, .f32⟩ : BufTy).Contents (Elt Ideal)) (x3 : (⟨S64x16, .f32⟩ : BufTy).Contents (Elt Ideal)) (x4 : (⟨S18x64, .f32⟩ : BufTy).Contents (Elt Ideal)) (x5 x6 : (⟨S64x64, .f32⟩ : BufTy).Contents (Elt Ideal)) (x7 : (⟨S64x3, .f32⟩ : BufTy).Contents (Elt Ideal))
    (r : Fin 1048576) (q : Fin 4) :
    val_main_v20 (F := Ideal) x0 x1 x2 x3 x4 x5 x6 x7 (ix2 r q) = out (rowOf x0 r) x1 x2 x3 x4 x5 x6 x7 q := by
  unfold val_main_v20 val_main_v19 val_main_v18 val_main_v17 val_main_v16 val_main_v15 val_main_v14 val_main_v13
    val_main_call3_v0 val_main_call3_cst val_main_call4_v0 val_main_call4_cst val_main_call5_v0 val_main_call5_cst
  simp only [Host.dotGeneral, PlainDot.dotGeneral_apply plain1, PlainDot.dotGeneral_apply plain4, maximumf_apply, scalar_bcast_apply,
    constant_apply, concat_cols_apply (a := 3) (b := 1) (n := 4) rfl, vector_bcast_column_apply (![0] : Fin 1 → Fin 2) rfl,
    color0_apply, density_apply, Ideal.ofBits_zero_f32]
  rfl

end Cert.ReferenceIdeal.Row

end
-- ==== Proof.lean ====
/- The proof of `Cert.Claim`: a block-of-rows kernel for two small bias-free networks against the whole-array reference.

   Both programs compute, for every row of the [1048576, 6] input, the same function of that row and of the seven weight
   matrices (Proof/Spec.lean): three dense layers with max(., 0) between them, softplus of one output, then four more dense
   layers on the row's last three entries joined with the other fifteen outputs.  The kernel takes 4096 rows per grid
   step and rounds the factors of each product to a shorter format first; the reference multiplies the whole arrays.
   Over the extended reals the rounding is the identity and a product's entry is the plain sum over the contracted index,
   so the only thing to show is that no step mixes rows:
     Proof/KernelRow.lean    entry (p, q) of the block a grid step stores is entry q of the row function of row p of the
                             loaded block;
     Proof/KernelArray.lean  row p of the block loaded at step t is row 4096 t + p of the input, the steps' blocks cover the
                             result, so the kernel's result array is the row function applied to every row;
     Proof/RefRow.lean       entry (r, q) of the reference's result is entry q of the row function of row r.
   The two spell softplus's guard against a not-a-number differently; no extended real differs from itself, so neither
   guard fires.  No finiteness of the inputs is used: both sides are the same sums of the same products.
   The frames are the generated ones; the kernel's idealization rewrote nothing. -/
import proofs.«162501_j45835890983142_1_alg».proof.Defs
import proofs.«162501_j45835890983142_1_alg».proof.Proof.Gen.Kernel
import proofs.«162501_j45835890983142_1_alg».proof.Proof.Gen.Kernel.Skeleton
import proofs.«162501_j45835890983142_1_alg».proof.Proof.Gen.Kernel.Launch
import proofs.«162501_j45835890983142_1_alg».proof.Proof.Gen.Kernel.Points
import proofs.«162501_j45835890983142_1_alg».proof.Proof.Gen.Kernel.Frame
import proofs.«162501_j45835890983142_1_alg».proof.Proof.Gen.KernelIdeal
import proofs.«162501_j45835890983142_1_alg».proof.Proof.Gen.KernelIdeal.Skeleton
import proofs.«162501_j45835890983142_1_alg».proof.Proof.Gen.KernelIdeal.Launch
import proofs.«162501_j45835890983142_1_alg».proof.Proof.Gen.KernelIdeal.Points
import proofs.«162501_j45835890983142_1_alg».proof.Proof.Gen.KernelIdeal.Frame
import proofs.«162501_j45835890983142_1_alg».proof.Proof.Gen.ReferenceIdeal
import proofs.«162501_j45835890983142_1_alg».proof.Proof.Gen.Pre_finite_inputs
import proofs.«162501_j45835890983142_1_alg».proof.Proof.Gen.KernelIdeal.Value
import proofs.«162501_j45835890983142_1_alg».proof.Proof.Gen.ReferenceIdeal.Run
import proofs.«162501_j45835890983142_1_alg».proof.Proof.Gen.ReferenceIdeal.Read
import proofs.«162501_j45835890983142_1_alg».proof.Proof.KernelArray
import proofs.«162501_j45835890983142_1_alg».proof.Proof.RefRow
import Idealize.ShloMosaic.Adequacy
import Idealize.ShloMosaic.Init

noncomputable section

namespace Cert.Proof

open Idealize.ShloMosaic Idealize.SL.Sem Idealize.ShloMosaic.ValueIdx

/-- The word-level kernel runs, faults nowhere and leaves its arguments as they were: the generated frame. -/
theorem frame_k : Cert.frame_Kernel := fun m ρ _ => Cert.Kernel.Gen.frame m ρ

/-- The same of the kernel read over the extended reals. -/
theorem frame_ki : Cert.frame_KernelIdeal := fun m ρ _ => Cert.KernelIdeal.Gen.frame m ρ

/-- The reference is a straight line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the row function applied to every row of the input. -/
theorem algebraic : Cert.algebraic_KernelIdeal_ReferenceIdeal := by
  intro m ρ m' ρ' _ hagree
  refine ⟨fun c => Cert.KernelIdeal.Array.target m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v20_eq, e0, e1, e2, e3, e4, e5, e6, e7]
  funext i
  obtain ⟨r, q, rfl⟩ : ∃ (r : Fin 1048576) (q : Fin 4), i = ix2 r q := ⟨i 0, i 1, eq_ix2 i⟩
  rw [Cert.ReferenceIdeal.Row.result_apply]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
